-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S32000000 : Shape := ⟨1, ![32000000]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel

variable [Facts]

def fn_part1 {F : FTy → Type} [FloatOps F] (main_arg4 : FVec F S1000000 .f32) (main_v13 : IVec S_ 1) (main_v16 : IVec S1000000 1) : IVec S_ 1 :=
  let main_c_5 : IVec S_ 1 := constantI S_ 1 1#1
  let main_v17 : IVec S_ 1 := (fun x v => Host.reduce IntOp.andi x v reducesTo_S1000000_S_d0 h_S_) main_v16 main_c_5
  let main_v18 : IVec S_ 1 := andi main_v13 main_v17
  let main_v19 : FVec F S1000000 .f32 := Host.absf main_arg4
  let main_cst_6 : FVec F S_ .f32 := constant S_ .f32 0x7F800000#32
  let main_v20 : FVec F S1000000 .f32 := broadcastInDim S1000000 ![] bcast_S_S1000000 main_cst_6
  let main_v21 : IVec S1000000 1 := cmpf .olt main_v19 main_v20
  let main_c_7 : IVec S_ 1 := constantI S_ 1 1#1
  let main_v22 : IVec S_ 1 := (fun x v => Host.reduce IntOp.andi x v reducesTo_S1000000_S_d0 h_S_) main_v21 main_c_7
  let main_v23 : IVec S_ 1 := andi main_v18 main_v22
  main_v23

def fn {F : FTy → Type} [FloatOps F] (main_arg0 : FVec F S1000000 .f32) (main_arg1 : FVec F S1000000 .f32) (main_arg2 : FVec F S1000000 .f32) (main_arg3 : FVec F S1000000 .f32) (main_arg4 : FVec F S1000000 .f32) (main_arg5 : IVec S32000000 32) (main_arg6 : IVec S32000000 32) : IVec S_ 1 :=
  let main_v0 : FVec F S1000000 .f32 := Host.absf main_arg0
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S1000000 .f32 := Host.absf main_arg1
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S1000000 .f32 := Host.absf main_arg2
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S1000000 .f32 := Host.absf main_arg3
  let main_cst_4 : FVec F S_ .f32 := constant S_ .f32 0x7F800000#32
  let main_v15 : FVec F S1000000 .f32 := broadcastInDim S1000000 ![] bcast_S_S1000000 main_cst_4
  let main_v16 : IVec S1000000 1 := cmpf .olt main_v14 main_v15
  fn_part1 (F := F) main_arg4 main_v13 main_v16
-- ==== Kernel.lean ====
abbrev S1000000 : Shape := ⟨1, ![1000000]⟩
abbrev S32000000 : Shape := ⟨1, ![32000000]⟩
abbrev S_ : Shape := ⟨0, ![]⟩
abbrev S32000000x1 : Shape := ⟨2, ![32000000, 1]⟩
abbrev S250000x128 : Shape := ⟨2, ![250000, 128]⟩
abbrev S10000x128 : Shape := ⟨2, ![10000, 128]⟩

abbrev nBuf : Space → Nat
  | .hbm => 59
  | .vmem => 6
  | .smem => 0
  | _ => 0

abbrev bufTy : (tb : Table) → Fin (tcTables nBuf tb) → BufTy
  | .hbm, ⟨0, _⟩ => ⟨S1000000, .f32⟩
  | .hbm, ⟨1, _⟩ => ⟨S1000000, .f32⟩
  | .hbm, ⟨2, _⟩ => ⟨S1000000, .f32⟩
  | .hbm, ⟨3, _⟩ => ⟨S1000000, .f32⟩
  | .hbm, ⟨4, _⟩ => ⟨S1000000, .f32⟩
  | .hbm, ⟨5, _⟩ => ⟨S32000000, .i32⟩
  | .hbm, ⟨6, _⟩ => ⟨S32000000, .i32⟩
  | .hbm, ⟨7, _⟩ => ⟨S_, .f32⟩
  | .hbm, ⟨8, _⟩ => ⟨S1000000, .f32⟩
  | .hbm, ⟨9, _⟩ => ⟨S1000000, .f32⟩
  | .hbm, ⟨10, _⟩ => ⟨S_, .f32⟩
  | .hbm, ⟨11, _⟩ => ⟨S1000000, .f32⟩
  | .hbm, ⟨12, _⟩ => ⟨S1000000, .f32⟩
  | .hbm, ⟨13, _⟩ => ⟨S_, .f32⟩
  | .hbm, ⟨14, _⟩ => ⟨S1000000, .f32⟩
  | .hbm, ⟨15, _⟩ => ⟨S1000000, .i1⟩
  | .hbm, ⟨16, _⟩ => ⟨S_, .f32⟩
  | .hbm, ⟨17, _⟩ => ⟨S_, .f32⟩
  | .hbm, ⟨18, _⟩ => ⟨S1000000, .f32⟩
  | .hbm, ⟨19, _⟩ => ⟨S1000000, .f32⟩
  | .hbm, ⟨20, _⟩ => ⟨S_, .f32⟩
  | .hbm, ⟨21, _⟩ => ⟨S1000000, .f32⟩
  | .hbm, ⟨22, _⟩ => ⟨S1000000, .i1⟩
  | .hbm, ⟨23, _⟩ => ⟨S_, .f32⟩
  | .hbm, ⟨24, _⟩ => ⟨S_, .f32⟩
  | .hbm, ⟨25, _⟩ => ⟨S1000000, .f32⟩
  | .hbm, ⟨26, _⟩ => ⟨S1000000, .f32⟩
  | .hbm, ⟨27, _⟩ => ⟨S_, .i32⟩
  | .hbm, ⟨28, _⟩ => ⟨S32000000, .i32⟩
  | .hbm, ⟨29, _⟩ => ⟨S32000000, .i1⟩
  | .hbm, ⟨30, _⟩ => ⟨S_, .i32⟩
  | .hbm, ⟨31, _⟩ => ⟨S32000000, .i32⟩
  | .hbm, ⟨32, _⟩ => ⟨S32000000, .i32⟩
  | .hbm, ⟨33, _⟩ => ⟨S32000000, .i32⟩
  | .hbm, ⟨34, _⟩ => ⟨S32000000x1, .i32⟩
  | .hbm, ⟨35, _⟩ => ⟨S32000000, .f32⟩
  | .hbm, ⟨36, _⟩ => ⟨S_, .i32⟩
  | .hbm, ⟨37, _⟩ => ⟨S32000000, .i32⟩
  | .hbm, ⟨38, _⟩ => ⟨S32000000, .i1⟩
  | .hbm, ⟨39, _⟩ => ⟨S_, .i32⟩
  | .hbm, ⟨40, _⟩ => ⟨S32000000, .i32⟩
  | .hbm, ⟨41, _⟩ => ⟨S32000000, .i32⟩
  | .hbm, ⟨42, _⟩ => ⟨S32000000, .i32⟩
  | .hbm, ⟨43, _⟩ => ⟨S32000000x1, .i32⟩
  | .hbm, ⟨44, _⟩ => ⟨S32000000, .f32⟩
  | .hbm, ⟨45, _⟩ => ⟨S250000x128, .f32⟩
  | .hbm, ⟨46, _⟩ => ⟨S250000x128, .f32⟩
  | .hbm, ⟨47, _⟩ => ⟨S250000x128, .f32⟩
  | .hbm, ⟨48, _⟩ => ⟨S32000000, .f32⟩
  | .hbm, ⟨49, _⟩ => ⟨S_, .f32⟩
  | .hbm, ⟨50, _⟩ => ⟨S1000000, .f32⟩
  | .hbm, ⟨51, _⟩ => ⟨S32000000x1, .i32⟩
  | .hbm, ⟨52, _⟩ => ⟨S1000000, .f32⟩
  | .hbm, ⟨53, _⟩ => ⟨S1000000, .f32⟩
  | .hbm, ⟨54, _⟩ => ⟨S_, .f32⟩
  | .hbm, ⟨55, _⟩ => ⟨S1000000, .f32⟩
  | .hbm, ⟨56, _⟩ => ⟨S1000000, .f32⟩
  | .hbm, ⟨57, _⟩ => ⟨S1000000, .i1⟩
  | .hbm, ⟨58, _⟩ => ⟨S1000000, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | _, _ => ⟨S1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_call0_cst : Ref sig .tc := ⟨.hbm, 10, rfl⟩
abbrev main_call0_v0 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_call1_v0 : Ref sig .tc := ⟨.hbm, 17, rfl⟩
abbrev main_call1_v1 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call2_v0 : Ref sig .tc := ⟨.hbm, 24, rfl⟩
abbrev main_call2_v1 : Ref sig .tc := ⟨.hbm, 25, rfl⟩
abbrev main_v8 : Ref sig .tc := ⟨.hbm, 26, rfl⟩
abbrev main_c : Ref sig .tc := ⟨.hbm, 27, rfl⟩
abbrev main_v9 : Ref sig .tc := ⟨.hbm, 28, rfl⟩
abbrev main_v10 : Ref sig .tc := ⟨.hbm, 29, rfl⟩
abbrev main_c_4 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c_5 : Ref sig .tc := ⟨.hbm, 36, rfl⟩
abbrev main_v16 : Ref sig .tc := ⟨.hbm, 37, rfl⟩
abbrev main_v17 : Ref sig .tc := ⟨.hbm, 38, rfl⟩
abbrev main_c_6 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_7 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_8 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S1000000 : S_.BroadcastsInDim S1000000 (![] : Fin 0 → Fin S1000000.rank)
  bcast_S_S32000000 : S_.BroadcastsInDim S32000000 (![] : Fin 0 → Fin S32000000.rank)
  bcast_S32000000_S32000000x1_0 : S32000000.BroadcastsInDim S32000000x1 (![0] : Fin 1 → Fin S32000000x1.rank)
  shapeCasts_S32000000_S250000x128 : S32000000.ShapeCasts S250000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  shapeCasts_S250000x128_S32000000 : S250000x128.ShapeCasts S32000000
  gather_S1000000_S32000000x1_S32000000_n_0_n_n_0_1_1_wf : GatherDims.WF S1000000 S32000000x1 S32000000 [] [0] [] [0] [] 1 ![1]
  scatter_S1000000_S32000000x1_S32000000_n_0_0_1_wf : ScatterDims.WF S1000000 S32000000x1 S32000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S250000x128.size a
  hwx0_0 : ∀ i : grid0.Coords, EltTy.bits .f32 = 32 ∨ (Rect.block (s := S250000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S250000x128.size a
  hwx0_1 : ∀ i : grid0.Coords, EltTy.bits .f32 = 32 ∨ (Rect.block (s := S250000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S250000x128.size a
  hwx0_2 : ∀ i : grid0.Coords, EltTy.bits .f32 = 32 ∨ (Rect.block (s := S250000x128) S10000x128.size (cc0_transform_2 i) (hinb0_2 i)).WholeWords (EltTy.packing .f32)

variable [Facts₀]

def gather_S1000000_S32000000x1_S32000000_n_0_n_n_0_1_1 : GatherDims S1000000 S32000000x1 S32000000 where
  offsetDims := []
  collapsedSliceDims := [0]
  operandBatchingDims := []
  startIndicesBatchingDims := []
  startIndexMap := [0]
  indexVectorDim := 1
  sliceSizes := ![1]
  wf := gather_S1000000_S32000000x1_S32000000_n_0_n_n_0_1_1_wf
def scatter_S1000000_S32000000x1_S32000000_n_0_0_1 : ScatterDims S1000000 S32000000x1 S32000000 where
  updateWindowDims := []
  insertedWindowDims := [0]
  scatterDimsToOperandDims := [0]
  indexVectorDim := 1
  wf := scatter_S1000000_S32000000x1_S32000000_n_0_0_1_wf

abbrev win0_0 : Pipeline.Window sig grid0 :=
  Pipeline.Window.ofSpec (Memref.whole main_v23) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1000000 : Shape := ⟨1, ![1000000]⟩
abbrev S32000000 : Shape := ⟨1, ![32000000]⟩
abbrev S_ : Shape := ⟨0, ![]⟩
abbrev S32000000x1 : Shape := ⟨2, ![32000000, 1]⟩

abbrev nBuf : Space → Nat
  | .hbm => 56
  | .vmem => 0
  | .smem => 0
  | _ => 0

abbrev bufTy : (tb : Table) → Fin (tcTables nBuf tb) → BufTy
  | .hbm, ⟨0, _⟩ => ⟨S1000000, .f32⟩
  | .hbm, ⟨1, _⟩ => ⟨S1000000, .f32⟩
  | .hbm, ⟨2, _⟩ => ⟨S1000000, .f32⟩
  | .hbm, ⟨3, _⟩ => ⟨S1000000, .f32⟩
  | .hbm, ⟨4, _⟩ => ⟨S1000000, .f32⟩
  | .hbm, ⟨5, _⟩ => ⟨S32000000, .i32⟩
  | .hbm, ⟨6, _⟩ => ⟨S32000000, .i32⟩
  | .hbm, ⟨7, _⟩ => ⟨S_, .f32⟩
  | .hbm, ⟨8, _⟩ => ⟨S1000000, .f32⟩
  | .hbm, ⟨9, _⟩ => ⟨S1000000, .f32⟩
  | .hbm, ⟨10, _⟩ => ⟨S_, .f32⟩
  | .hbm, ⟨11, _⟩ => ⟨S1000000, .f32⟩
  | .hbm, ⟨12, _⟩ => ⟨S1000000, .f32⟩
  | .hbm, ⟨13, _⟩ => ⟨S_, .f32⟩
  | .hbm, ⟨14, _⟩ => ⟨S1000000, .f32⟩
  | .hbm, ⟨15, _⟩ => ⟨S1000000, .i1⟩
  | .hbm, ⟨16, _⟩ => ⟨S1000000, .f32⟩
  | .hbm, ⟨17, _⟩ => ⟨S1000000, .f32⟩
  | .hbm, ⟨18, _⟩ => ⟨S_, .f32⟩
  | .hbm, ⟨19, _⟩ => ⟨S1000000, .f32⟩
  | .hbm, ⟨20, _⟩ => ⟨S1000000, .i1⟩
  | .hbm, ⟨21, _⟩ => ⟨S1000000, .f32⟩
  | .hbm, ⟨22, _⟩ => ⟨S1000000, .f32⟩
  | .hbm, ⟨23, _⟩ => ⟨S_, .i32⟩
  | .hbm, ⟨24, _⟩ => ⟨S32000000, .i32⟩
  | .hbm, ⟨25, _⟩ => ⟨S32000000, .i1⟩
  | .hbm, ⟨26, _⟩ => ⟨S_, .i32⟩
  | .hbm, ⟨27, _⟩ => ⟨S32000000, .i32⟩
  | .hbm, ⟨28, _⟩ => ⟨S32000000, .i32⟩
  | .hbm, ⟨29, _⟩ => ⟨S32000000, .i32⟩
  | .hbm, ⟨30, _⟩ => ⟨S32000000x1, .i32⟩
  | .hbm, ⟨31, _⟩ => ⟨S32000000, .f32⟩
  | .hbm, ⟨32, _⟩ => ⟨S_, .i32⟩
  | .hbm, ⟨33, _⟩ => ⟨S32000000, .i32⟩
  | .hbm, ⟨34, _⟩ => ⟨S32000000, .i1⟩
  | .hbm, ⟨35, _⟩ => ⟨S_, .i32⟩
  | .hbm, ⟨36, _⟩ => ⟨S32000000, .i32⟩
  | .hbm, ⟨37, _⟩ => ⟨S32000000, .i32⟩
  | .hbm, ⟨38, _⟩ => ⟨S32000000, .i32⟩
  | .hbm, ⟨39, _⟩ => ⟨S32000000x1, .i32⟩
  | .hbm, ⟨40, _⟩ => ⟨S32000000, .f32⟩
  | .hbm, ⟨41, _⟩ => ⟨S32000000, .f32⟩
  | .hbm, ⟨42, _⟩ => ⟨S_, .f32⟩
  | .hbm, ⟨43, _⟩ => ⟨S32000000, .f32⟩
  | .hbm, ⟨44, _⟩ => ⟨S32000000, .f32⟩
  | .hbm, ⟨45, _⟩ => ⟨S32000000, .f32⟩
  | .hbm, ⟨46, _⟩ => ⟨S_, .f32⟩
  | .hbm, ⟨47, _⟩ => ⟨S1000000, .f32⟩
  | .hbm, ⟨48, _⟩ => ⟨S32000000x1, .i32⟩
  | .hbm, ⟨49, _⟩ => ⟨S1000000, .f32⟩
  | .hbm, ⟨50, _⟩ => ⟨S1000000, .f32⟩
  | .hbm, ⟨51, _⟩ => ⟨S_, .f32⟩
  | .hbm, ⟨52, _⟩ => ⟨S1000000, .f32⟩
  | .hbm, ⟨53, _⟩ => ⟨S1000000, .f32⟩
  | .hbm, ⟨54, _⟩ => ⟨S1000000, .i1⟩
  | .hbm, ⟨55, _⟩ => ⟨S1000000, .f32⟩
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_call0_cst : Ref sig .tc := ⟨.hbm, 10, rfl⟩
abbrev main_call0_v0 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S32000000 : S_.BroadcastsInDim S32000000 (![] : Fin 0 → Fin S32000000.rank)
  bcast_S32000000_S32000000x1_0 : S32000000.BroadcastsInDim S32000000x1 (![0] : Fin 1 → Fin S32000000x1.rank)
  gather_S1000000_S32000000x1_S32000000_n_0_n_n_0_1_1_wf : GatherDims.WF S1000000 S32000000x1 S32000000 [] [0] [] [0] [] 1 ![1]
  scatter_S1000000_S32000000x1_S32000000_n_0_0_1_wf : ScatterDims.WF S1000000 S32000000x1 S32000000 [] [0] [0] 1

variable [Facts₀]

def gather_S1000000_S32000000x1_S32000000_n_0_n_n_0_1_1 : GatherDims S1000000 S32000000x1 S32000000 where
  offsetDims := []
  collapsedSliceDims := [0]
  operandBatchingDims := []
  startIndicesBatchingDims := []
  startIndexMap := [0]
  indexVectorDim := 1
  sliceSizes := ![1]
  wf := gather_S1000000_S32000000x1_S32000000_n_0_n_n_0_1_1_wf
def scatter_S1000000_S32000000x1_S32000000_n_0_0_1 : ScatterDims S1000000 S32000000x1 S32000000 where
  updateWindowDims := []
  insertedWindowDims := [0]
  scatterDimsToOperandDims := [0]
  indexVectorDim := 1
  wf := scatter_S1000000_S32000000x1_S32000000_n_0_0_1_wf

class Facts : Prop extends Facts₀ where

variable [Facts]
-- ==== Proof.EdgeArray.lean ====
/-
  The region of the idealized kernel, read as one array.

  The pallas_call walks a grid of 25 points; at point `t` all three windows sit at block `(t, 0)`,
  a block being 10000 rows of 128 lanes of a 250000 × 128 array.  The body loads the two input
  blocks whole, computes `log (1 - s * i)` entry by entry and stores the result whole.  So what
  point `t` writes back is block `t` of ONE function of the two input arrays, the function
  `j ↦ log (1 - s j * i j)`; and since row `r` lies in block `r / 10000`, the 25 blocks cover the output
  array, which therefore ends holding that function everywhere.
-/
import proofs.«404786_j29755533426928_3_alg».proof.Proof.Gen.KernelIdeal.Frame
import Idealize.ShloMosaic.Lib.Pipeline.Value

noncomputable section

namespace Cert.KernelIdeal.EdgeArray

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The log of the probability that one contact does NOT transmit, for every contact of a
    250000 × 128 table of contacts: `log (1 - s * i)` entry by entry. -/
abbrev logNoTransmit (s i : S250000x128.Idx → Elt F .f32) : S250000x128.Idx → Elt F .f32 :=
  fun j => FloatOps.log (FloatOps.subf (Scalar.ofBits .f32 0x3F800000#32) (FloatOps.mulf (s j) (i j)))

theorem origin_eq : (![0, 0] : Fin 2 → Nat) = fun _ => 0 := funext fun a => by fin_cases a <;> rfl

/-- The body's one stored value is that expression of its two loaded blocks (the two shape casts in
    it are to the blocks' own shape). -/
theorem payload_eq (x0 x1 : Vec F S10000x128 .f32) :
    k0_pay1 x0 x1 = fun j => FloatOps.log (FloatOps.subf (Scalar.ofBits .f32 0x3F800000#32) (FloatOps.mulf (x0 j) (x1 j))) := by
  unfold k0_pay1
  simp only [shapeCast_self]
  rfl

/-- Over the grid: the three windows share one block index, which is `(t, 0)`. -/
theorem index_facts : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) = t.val
    ∧ win0_2.index t (1 : Fin 2) = 0 :=
  (by decide +kernel : ∀ t : Fin grid0.N, _)

/-- What point `t` writes back is block `t` of `logNoTransmit` of the two input arrays. -/
theorem flushed_eq (c : Dev nD) (t : Fin cfg0.N) :
    (dats m 0 c).flushed 2 t
      = ((cfg0.win 2).blk t).view.read (Elt F) (logNoTransmit (V m c main_v23) (V m c main_v24)) := by
  show (cfg0.win 2).cut (grid0.coords t) ((dats m 0 c).after 2 t) = _
  rw [after0_2]
  unfold out0_2
  rw [View.canon_unit_zero origin_eq]
  simp only [View.ld_unit_zero (S := S10000x128) origin_eq]
  rw [payload_eq]
  obtain ⟨e0, e1, e2, e3, e4, e5⟩ := index_facts t
  funext j
  show FloatOps.log (FloatOps.subf (Scalar.ofBits .f32 0x3F800000#32) (FloatOps.mulf (V m c main_v23 (((cfg0.win 0).blk t).view.emb j)) (V m c main_v24 (((cfg0.win 1).blk t).view.emb j))))
     = FloatOps.log (FloatOps.subf (Scalar.ofBits .f32 0x3F800000#32) (FloatOps.mulf (V m c main_v23 (((cfg0.win 2).blk t).view.emb j)) (V m c main_v24 (((cfg0.win 2).blk t).view.emb j))))
  have h0 : ((cfg0.win 0).blk t).view.emb j = ((cfg0.win 2).blk t).view.emb j := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 10000 + 1 * (j 0).val = win0_2.index t (0 : Fin 2) * 10000 + 1 * (j 0).val; omega
    | ⟨1, _⟩ => show win0_1.index t (1 : Fin 2) * 128 + 1 * (j 1).val = win0_2.index t (1 : Fin 2) * 128 + 1 * (j 1).val; omega
  rw [h0, h1]

/-- An index is in point `t`'s output block iff each coordinate is in the block's range on its axis. -/
theorem mem_block (t : Fin cfg0.N) (i : S250000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v25).slice (win0_2.rect t)).set ↔ _
  rw [View.set_slice_whole, Rect.mem_set_unit]
  exact Iff.rfl

/-- Every index of the output array is in some point's block: row `r` is in block `r / 10000`. -/
theorem covered (i : S250000x128.Idx) :
    ∃ t : Fin cfg0.N, (cfg0.win 2).flush t = true ∧ i ∈ ((cfg0.win 2).blk t).view.set := by
  have hi0 : (i 0).val < 250000 := (i 0).isLt
  have hi1 : (i 1).val < 128 := (i 1).isLt
  have hN : cfg0.N = 25 := N_0
  have hlt : (i 0).val / 10000 < cfg0.N := by rw [hN]; omega
  obtain ⟨-, -, -, -, e4, e5⟩ := index_facts ⟨(i 0).val / 10000, hlt⟩
  refine ⟨⟨(i 0).val / 10000, hlt⟩, flush0_2 _, ?_⟩
  rw [mem_block]
  intro a
  match a with
  | ⟨0, _⟩ =>
    show win0_2.index ⟨(i 0).val / 10000, hlt⟩ (0 : Fin 2) * 10000 ≤ (i 0).val ∧ (i 0).val < win0_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, hlt⟩ (1 : Fin 2) * 128 ≤ (i 1).val ∧ (i 1).val < win0_2.index ⟨(i 0).val / 10000, hlt⟩ (1 : Fin 2) * 128 + 128
    rw [e5]; omega

/-- THE OUTPUT ARRAY after the region: `logNoTransmit` of the two input arrays as the region finds them. -/
theorem final (c : Dev nD) :
    (dats m 0 c).arrAt 2 cfg0.N = logNoTransmit (V m c main_v23) (V m c main_v24) :=
  (dats m 0 c).arrAt_eq_of_cover 2 _ (fun t _ => flushed_eq m c t) covered

end Cert.KernelIdeal.EdgeArray

end
-- ==== Proof.HostValue.lean ====
/-
  The host side of the idealized kernel's program, read as values.

  BEFORE the region the program computes, from the exposure clocks `E`, the clock one day on,
  `max (E - 1) 0`; from it two node tables — `susceptiveness` kept where the new clock is `+∞`
  (never exposed) and `infectiveness` kept where it is `0` (incubation over), zero elsewhere —;
  it gathers the first table at each contact's source and the second at its destination (a negative
  node index wrapped by the number of nodes first), and lays each gathered list out as 250000 rows of
  128: those are the region's two input arrays.

  AFTER the region it flattens the region's output back to a list over the contacts, adds each
  entry into its source node's total (a scatter-add into zeros), and ends at
  `where (rand < 1 - exp total) incubation (new clock)`.
-/
import proofs.«404786_j29755533426928_3_alg».proof.Proof.Gen.KernelIdeal.Frame
import Idealize.ShloMosaic.Lib.StableHlo.Run

noncomputable section

namespace Cert.KernelIdeal.HostValue

open Cert.KernelIdeal Cert.KernelIdeal.Gen Idealize.ShloMosaic Idealize.ShloMosaic.TcCoe Idealize.SL.Sem
open Idealize.ShloMosaic.StableHlo
open Idealize.ShloMosaic.Pipeline (Dat)

variable {F : FTy → Type} [FloatOps F]
variable (m : (ℓ : Loc nD τ sig) → Buf (Elt F) ℓ) (ρ : Dev nD → PrngReg)

/-- A table over the nodes / a list over the contacts / a list of node indices over the contacts. -/
abbrev Nodes (F : FTy → Type) [FloatOps F] : Type := (⟨S1000000, .f32⟩ : BufTy).Contents (Elt F)
abbrev Contacts (F : FTy → Type) [FloatOps F] : Type := (⟨S32000000, .f32⟩ : BufTy).Contents (Elt F)
abbrev NodeIds (F : FTy → Type) [FloatOps F] : Type := (⟨S32000000, .i32⟩ : BufTy).Contents (Elt F)

/-- The exposure clock one day on: `max (E - 1) 0`. -/
def clock (E : Nodes F) : Nodes F :=
  maximumf (subf E (broadcastInDim S1000000 ![] bcast_S_S1000000 (constant S_ .f32 0x3F800000#32)))
    (broadcastInDim S1000000 ![] bcast_S_S1000000 (constant S_ .f32 0x00000000#32))

/-- `x` at the nodes whose clock equals the number of bit pattern `w`, zero at the others. -/
def keptWhere (w : BitVec 32) (E2 x : Nodes F) : Nodes F :=
  select (cmpf .oeq E2 (broadcastInDim S1000000 ![] bcast_S_S1000000 (constant S_ .f32 w))) x
    (broadcastInDim S1000000 ![] bcast_S_S1000000 (id (constant S_ .f32 0x00000000#32)))

/-- The node indices as a gather takes them: a negative one wrapped by the number of nodes, one
    index per row. -/
def wrapped (a : NodeIds F) : (⟨S32000000x1, .i32⟩ : BufTy).Contents (Elt F) :=
  broadcastInDim S32000000x1 ![0] bcast_S32000000_S32000000x1_0
    (select (cmpi .slt a (broadcastInDim S32000000 ![] bcast_S_S32000000 (constantI S_ 32 0#32)))
      (addi a (broadcastInDim S32000000 ![] bcast_S_S32000000 (constantI S_ 32 1000000#32))) a)

/-- A node table read at each contact's (wrapped) node index. -/
def atContacts (T : Nodes F) (a : NodeIds F) : Contacts F :=
  Host.gather gather_S1000000_S32000000x1_S32000000_n_0_n_n_0_1_1 T (wrapped a)

/-- From the per-contact values to the result: totals per source node, then the draw. -/
def outcome (vals : Contacts F) (src : NodeIds F) (rand incubation E2 : Nodes F) : Nodes F :=
  select (cmpf .olt rand (subf (broadcastInDim S1000000 ![] bcast_S_S1000000 (constant S_ .f32 0x3F800000#32))
      (Host.exp (Host.scatterAdd scatter_S1000000_S32000000x1_S32000000_n_0_0_1
        (broadcastInDim S1000000 ![] bcast_S_S1000000 (constant S_ .f32 0x00000000#32))
        (broadcastInDim S32000000x1 ![0] bcast_S32000000_S32000000x1_0 src) vals))))
    incubation E2

/-- The new clock, as the region finds it. -/
theorem clock_eq (c : Dev nD) :
    (V m c main_v2 : Nodes F) = clock (m ((c : Thread nD τ).loc main_arg0)) := by
  unfold clock
  dsimp only [V, V0]
  simp only [hostOps0, hostOps0_1, hostOps0_2, hostOps0_3, hostOps0_4, hostOps0_5, hostOps0_6, List.flatten_cons, List.flatten_nil,
    List.append_nil, List.cons_append, List.nil_append]
  after_results
  rfl

/-- The region's first input array: `susceptiveness` where the new clock is `+∞`, read at each
    contact's source, as 250000 rows of 128. -/
theorem sourceArr_eq (c : Dev nD) :
    (V m c main_v23 : (⟨S250000x128, .f32⟩ : BufTy).Contents (Elt F))
      = shapeCast S250000x128 (atContacts (keptWhere 0x7F800000#32 (clock (m ((c : Thread nD τ).loc main_arg0))) (m ((c : Thread nD τ).loc main_arg1)))
          (m ((c : Thread nD τ).loc main_arg5))) shapeCasts_S32000000_S250000x128 := by
  unfold atContacts keptWhere wrapped clock
  dsimp only [V, V0]
  simp only [hostOps0, hostOps0_1, hostOps0_2, hostOps0_3, hostOps0_4, hostOps0_5, hostOps0_6, List.flatten_cons, List.flatten_nil,
    List.append_nil, List.cons_append, List.nil_append]
  after_results_simp
  rfl

set_option maxHeartbeats 2000000 in
/-- The region's second input array: `infectiveness` where the new clock is `0`, read at each
    contact's destination, as 250000 rows of 128. -/
theorem destArr_eq (c : Dev nD) :
    (V m c main_v24 : (⟨S250000x128, .f32⟩ : BufTy).Contents (Elt F))
      = shapeCast S250000x128 (atContacts (keptWhere 0x00000000#32 (clock (m ((c : Thread nD τ).loc main_arg0))) (m ((c : Thread nD τ).loc main_arg2)))
          (m ((c : Thread nD τ).loc main_arg6))) shapeCasts_S32000000_S250000x128 := by
  unfold atContacts keptWhere wrapped clock
  dsimp only [V, V0]
  simp only [hostOps0, hostOps0_1, hostOps0_2, hostOps0_3, hostOps0_4, hostOps0_5, hostOps0_6, List.flatten_cons, List.flatten_nil,
    List.append_nil, List.cons_append, List.nil_append]
  after_results_simp
  rfl

set_option maxHeartbeats 2000000 in
/-- THE RESULT after the lines that follow the region, from the region's output array `A` (whatever
    it is): `outcome` of `A` flattened. -/
theorem result_eq (c : Dev nD) :
    Pipeline.afterTail₀ cfgs (dats m) 0 (V0 m) [hostOps1, hostOps1_1] c main_v34
      = outcome (shapeCast S32000000 ((dats m 0 c).arrAt 2 cfg0.N) shapeCasts_S250000x128_S32000000)
          (m ((c : Thread nD τ).loc main_arg5)) (m ((c : Thread nD τ).loc main_arg4)) (m ((c : Thread nD τ).loc main_arg3))
          (clock (m ((c : Thread nD τ).loc main_arg0))) := by
  have hA : Pipeline.withArrays spec0 c (V0 m c) (fun w => (dats m 0 c).arrAt w cfg0.N) (Proc.devRef .tc main_v25)
      = (dats m 0 c).arrAt 2 cfg0.N := Pipeline.withArrays_arr spec0 launch0.win.arr_inj c _ _ 2
  have h3 := Pipeline.withArrays_of_ne spec0 c (V0 m c) (fun w => (dats m 0 c).arrAt w cfg0.N) main_arg3 (by exact (by decide : ∀ w, Pipeline.arrRef spec0 w ≠ main_arg3))
  have h4 := Pipeline.withArrays_of_ne spec0 c (V0 m c) (fun w => (dats m 0 c).arrAt w cfg0.N) main_arg4 (by exact (by decide : ∀ w, Pipeline.arrRef spec0 w ≠ main_arg4))
  have h5 := Pipeline.withArrays_of_ne spec0 c (V0 m c) (fun w => (dats m 0 c).arrAt w cfg0.N) main_arg5 (by exact (by decide : ∀ w, Pipeline.arrRef spec0 w ≠ main_arg5))
  have h2 := Pipeline.withArrays_of_ne spec0 c (V0 m c) (fun w => (dats m 0 c).arrAt w cfg0.N) main_v2 (by exact (by decide : ∀ w, Pipeline.arrRef spec0 w ≠ main_v2))
  unfold Pipeline.afterTail₀ outcome
  simp only [hostOps1, hostOps1_1, List.flatten_cons, List.flatten_nil, List.append_nil, List.cons_append, List.nil_append]
  after_results_simp
  rw [hA, h3, h4, h5, h2]
  rw [show V0 m c (Proc.devRef .tc main_arg3) = m ((c : Thread nD τ).loc main_arg3) from V_main_arg3 m c,
    show V0 m c (Proc.devRef .tc main_arg4) = m ((c : Thread nD τ).loc main_arg4) from V_main_arg4 m c,
    show V0 m c (Proc.devRef .tc main_arg5) = m ((c : Thread nD τ).loc main_arg5) from V_main_arg5 m c,
    show V0 m c (Proc.devRef .tc main_v2) = clock (m ((c : Thread nD τ).loc main_arg0)) from clock_eq m c]
  rfl

end Cert.KernelIdeal.HostValue

end
-- ==== Proof.ProgramValue.lean ====
/-
  The idealized kernel's program, run and read: every weakly fair execution ends with the result
  buffer at ONE function of the argument arrays —

    outcome (flatten (log (1 - S * I))) src rand incubation (new clock)

  where `S` and `I` are the two gathered tables laid out as 250000 × 128 (the region's inputs), the
  logarithm is taken entry by entry by the region, and `outcome` is what the lines after the region
  do — and with the seven argument arrays as launched.
-/
import proofs.«404786_j29755533426928_3_alg».proof.Proof.EdgeArray
import proofs.«404786_j29755533426928_3_alg».proof.Proof.HostValue

noncomputable section

namespace Cert.KernelIdeal.ProgramValue

open Cert.KernelIdeal Cert.KernelIdeal.Gen Idealize.ShloMosaic Idealize.ShloMosaic.TcCoe Idealize.SL.Sem
open Cert.KernelIdeal.HostValue Cert.KernelIdeal.EdgeArray

variable {F : FTy → Type} [FloatOps F]
variable (m : (ℓ : Loc nD τ sig) → Buf (Elt F) ℓ) (ρ : Dev nD → PrngReg)

/-- The result as a function of the seven argument arrays. -/
def result (E sus inf incubation rand : Nodes F) (src dst : NodeIds F) : Nodes F :=
  outcome
    (shapeCast S32000000
      (logNoTransmit
        (shapeCast S250000x128 (atContacts (keptWhere 0x7F800000#32 (clock E) sus) src) shapeCasts_S32000000_S250000x128)
        (shapeCast S250000x128 (atContacts (keptWhere 0x00000000#32 (clock E) inf) dst) shapeCasts_S32000000_S250000x128))
      shapeCasts_S250000x128_S32000000)
    src rand incubation (clock E)

/-- The result buffer after the program, on core `c`. -/
theorem result_after (c : Dev nD) :
    Pipeline.afterTail₀ cfgs (dats m) 0 (V0 m) [hostOps1, hostOps1_1] c main_v34
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  rw [result_eq m c, final m c, sourceArr_eq m c, destArr_eq m c]
  rfl

/-- THE RUN: the result at `result` of the arguments, the arguments unchanged. -/
theorem run : θ_run defs (onTc (τ := τ) (main (F := F))) ⟨m, fun _ => 0, ρ⟩ fun r => ∀ c : Dev nD,
      r.2.mem ((c.tc : Thread nD τ).loc main_v34)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v34 (Pipeline.mem_restRefs_of main_v34 (by decide) (by decide))).trans (result_after m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.ProgramValue

end
-- ==== Proof.LibPointwise.lean ====
/-
  Two pointwise facts about arrays of extended reals, for any shape.

  * THE INDICATOR PRODUCT.  Keeping `x` where a one-bit mask is set and writing `0` elsewhere is the
    product of `x` with the mask read as the number `1` or `0`: `1 * x = x` and `0 * x = 0` hold for
    EVERY extended real `x` (the infinities included: `0 * ⊤ = 0` there), so nothing is asked of `x`.

  * A POINTWISE MAP COMMUTES WITH A CHANGE OF SHAPE.  A reshape only renames indices (row-major
    position is kept), so reshaping two arrays, combining them entry by entry, and reshaping the
    result back is combining the two arrays entry by entry in the first place.
-/
import Idealize.ShloMosaic.PureOps.Ideal
import Idealize.ShloMosaic.PureOps.Ideal.Laws
import Idealize.ShloMosaic.Lib.Pipeline.Value

noncomputable section

namespace Cert.LibPointwise

open Idealize.ShloMosaic

/-- Where the mask bit is `1` the entry of `x`, elsewhere the entry of `z`; when `z` is zero
    everywhere this is the mask, read as `1` / `0`, times `x`. -/
theorem select_zero_eq_uitofp_mul {S : Shape} (c : IVec S 1) (x z : FVec Ideal S .f32) (hz : ∀ i, z i = 0) :
    select c x z = mulf (uitofp (F := Ideal) .f32 c) x := by
  funext i
  show Scalar.select (c i) (x i) (z i) = FloatOps.mulf (FloatOps.uitofp (F := Ideal) .f32 (c i)) (x i)
  rw [hz i, Ideal.mulf_def]
  show _ = (((c i).toNat : ℝ) : EReal) * x i
  rcases BitVec.eq_zero_or_eq_one (c i) with h | h
  · rw [h]
    show (if (0#1 : BitVec 1) = 1 then x i else 0) = (((0#1 : BitVec 1).toNat : ℝ) : EReal) * x i
    rw [if_neg (by decide)]
    simp
  · rw [h]
    show (if (1#1 : BitVec 1) = 1 then x i else 0) = (((1#1 : BitVec 1).toNat : ℝ) : EReal) * x i
    rw [if_pos (by decide)]
    simp

/-- Reshape `a` and `b` from `S` to `T`, apply `f` entry by entry, reshape back to `S`: that is `f` of
    the entries of `a` and `b` themselves. -/
theorem shapeCast_map₂_shapeCast {S T : Shape} {α β : Type} (f : α → α → β) (a b : S.Idx → α)
    (h : S.ShapeCasts T) (h' : T.ShapeCasts S) :
    shapeCast S (fun j => f (shapeCast T a h j) (shapeCast T b h j)) h' = fun i => f (a i) (b i) := by
  funext i
  show f (a (Shape.reshapeEquiv _ (Shape.reshapeEquiv _ i))) (b (Shape.reshapeEquiv _ (Shape.reshapeEquiv _ i))) = _
  rw [Shape.reshapeEquiv_reshapeEquiv, Shape.reshapeEquiv_self]

end Cert.LibPointwise

end
-- ==== Proof.Bridge.lean ====
/-
  The two programs compute one function of the arguments, at the extended reals.

  Both end with `where (rand < 1 - exp total) incubation (new clock)`, the totals being the per-contact
  values `log (1 - S[src] * I[dst])` added into each contact's source node, and both read the node
  tables `S`, `I` at the same (wrapped) node indices.  They differ in two spellings only:

  * the node tables.  The kernel's program keeps `x` where the new clock equals a given number and
    writes zero elsewhere; the reference multiplies `x` by that comparison read as `1` or `0`.  These
    agree for every extended real `x` (`1 * x = x`, `0 * x = 0`).
  * the per-contact values.  The reference takes the logarithm over the flat list of contacts; the
    kernel's program lays the two gathered lists out as 250000 × 128, takes the logarithm there entry
    by entry, and flattens the result.  A change of shape keeps row-major position, so there and
    back around an entry-by-entry map is that map on the flat lists; and the logarithm, the product
    and the difference from one are the same operations on the extended reals in both programs.

  No algebraic law that could fail at an infinity is used, so the precondition is not opened.
-/
import proofs.«404786_j29755533426928_3_alg».proof.Proof.ProgramValue
import proofs.«404786_j29755533426928_3_alg».proof.Proof.LibPointwise
import proofs.«404786_j29755533426928_3_alg».proof.Proof.Gen.ReferenceIdeal

noncomputable section

namespace Cert.ReferenceIdeal.RefValue

open Cert.ReferenceIdeal Cert.ReferenceIdeal.Gen Idealize.ShloMosaic

variable {F : FTy → Type} [FloatOps F]

/-- The reference's result as a function of the seven argument arrays: the composed term of its
    host operations, in program order. -/
def result (E sus inf incubation rand : (⟨S1000000, .f32⟩ : BufTy).Contents (Elt F))
    (src dst : (⟨S32000000, .i32⟩ : BufTy).Contents (Elt F)) : (⟨S1000000, .f32⟩ : BufTy).Contents (Elt F) :=
  select (cmpf .olt rand (subf (broadcastInDim S1000000 ![] bcast_S_S1000000 (constant S_ .f32 0x3F800000#32)) (Host.exp (Host.scatterAdd scatter_S1000000_S32000000x1_S32000000_n_0_0_1 (broadcastInDim S1000000 ![] bcast_S_S1000000 (constant S_ .f32 0x00000000#32)) (broadcastInDim S32000000x1 ![0] bcast_S32000000_S32000000x1_0 src) (Host.log (subf (broadcastInDim S32000000 ![] bcast_S_S32000000 (constant S_ .f32 0x3F800000#32)) (mulf (Host.gather gather_S1000000_S32000000x1_S32000000_n_0_n_n_0_1_1 (mulf (uitofp .f32 (cmpf .oeq (maximumf (subf E (broadcastInDim S1000000 ![] bcast_S_S1000000 (constant S_ .f32 0x3F800000#32))) (broadcastInDim S1000000 ![] bcast_S_S1000000 (constant S_ .f32 0x00000000#32))) (broadcastInDim S1000000 ![] bcast_S_S1000000 (constant S_ .f32 0x7F800000#32)))) sus) (broadcastInDim S32000000x1 ![0] bcast_S32000000_S32000000x1_0 (select (cmpi .slt src (broadcastInDim S32000000 ![] bcast_S_S32000000 (constantI S_ 32 0#32))) (addi src (broadcastInDim S32000000 ![] bcast_S_S32000000 (constantI S_ 32 1000000#32))) src))) (Host.gather gather_S1000000_S32000000x1_S32000000_n_0_n_n_0_1_1 (mulf (uitofp .f32 (cmpf .oeq (maximumf (subf E (broadcastInDim S1000000 ![] bcast_S_S1000000 (constant S_ .f32 0x3F800000#32))) (broadcastInDim S1000000 ![] bcast_S_S1000000 (constant S_ .f32 0x00000000#32))) (broadcastInDim S1000000 ![] bcast_S_S1000000 (constant S_ .f32 0x00000000#32)))) inf) (broadcastInDim S32000000x1 ![0] bcast_S32000000_S32000000x1_0 (select (cmpi .slt dst (broadcastInDim S32000000 ![] bcast_S_S32000000 (constantI S_ 32 0#32))) (addi dst (broadcastInDim S32000000 ![] bcast_S_S32000000 (constantI S_ 32 1000000#32))) dst)))))))))) incubation (maximumf (subf E (broadcastInDim S1000000 ![] bcast_S_S1000000 (constant S_ .f32 0x3F800000#32))) (broadcastInDim S1000000 ![] bcast_S_S1000000 (constant S_ .f32 0x00000000#32)))

end Cert.ReferenceIdeal.RefValue

namespace Cert.Proof.Bridge

open Idealize.ShloMosaic
open Cert.KernelIdeal.HostValue (Nodes Contacts NodeIds)

/-- Flattening the region's entry-by-entry `log (1 - s * i)` of two laid-out lists is the reference's
    `log (1 - s * i)` of the flat lists. -/
theorem flat_log (A B : Contacts Ideal) :
    shapeCast Cert.KernelIdeal.S32000000
        (Cert.KernelIdeal.EdgeArray.logNoTransmit
          (shapeCast Cert.KernelIdeal.S250000x128 A Cert.KernelIdeal.Gen.shapeCasts_S32000000_S250000x128)
          (shapeCast Cert.KernelIdeal.S250000x128 B Cert.KernelIdeal.Gen.shapeCasts_S32000000_S250000x128))
        Cert.KernelIdeal.Gen.shapeCasts_S250000x128_S32000000
      = Host.log (F := Ideal) (subf (F := Ideal) (broadcastInDim Cert.ReferenceIdeal.S32000000 ![] Cert.ReferenceIdeal.Gen.bcast_S_S32000000
          (constant (F := Ideal) Cert.ReferenceIdeal.S_ .f32 0x3F800000#32)) (mulf (F := Ideal) A B)) := by
  refine (Cert.LibPointwise.shapeCast_map₂_shapeCast (S := Cert.KernelIdeal.S32000000) (T := Cert.KernelIdeal.S250000x128)
    (fun x y : Ideal .f32 => FloatOps.log (FloatOps.subf (FloatOps.ofBits .f32 0x3F800000#32) (FloatOps.mulf x y))) A B
    Cert.KernelIdeal.Gen.shapeCasts_S32000000_S250000x128 Cert.KernelIdeal.Gen.shapeCasts_S250000x128_S32000000).trans ?_
  rfl

/-- The kernel's node table (kept where the clock equals the number of pattern `w`, zero elsewhere)
    is the reference's (the comparison as `1` / `0`, times the values). -/
theorem kept_eq (w : BitVec 32) (E2 x : Nodes Ideal) :
    Cert.KernelIdeal.HostValue.keptWhere w E2 x
      = mulf (F := Ideal) (uitofp (F := Ideal) .f32 (cmpf (F := Ideal) .oeq E2 (broadcastInDim Cert.KernelIdeal.S1000000 ![] Cert.KernelIdeal.Gen.bcast_S_S1000000
          (constant (F := Ideal) Cert.KernelIdeal.S_ .f32 w)))) x := by
  unfold Cert.KernelIdeal.HostValue.keptWhere
  exact Cert.LibPointwise.select_zero_eq_uitofp_mul _ _ _ (fun _ => Ideal.ofBits_zero_f32)

/-- THE TWO RESULTS ARE ONE FUNCTION of the seven argument arrays. -/
theorem value_eq (E sus inf incubation rand : Nodes Ideal) (src dst : NodeIds Ideal) :
    Cert.KernelIdeal.ProgramValue.result E sus inf incubation rand src dst
      = Cert.ReferenceIdeal.RefValue.result E sus inf incubation rand src dst := by
  unfold Cert.KernelIdeal.ProgramValue.result Cert.ReferenceIdeal.RefValue.result
  rw [flat_log, kept_eq, kept_eq]
  rfl

end Cert.Proof.Bridge

end
-- ==== Proof.lean ====
/- The proof of `Cert.Claim`: one step of an epidemic on a contact network, as a kernel and as its reference.

   The state is an exposure clock per node; a node whose clock, one day on, is `+∞` is susceptible, one
   whose clock is `0` is infective.  For each contact (source, destination) the chance that it does NOT
   transmit has logarithm `log (1 - S[source] * I[destination])`; these are added per source node, and a
   node is newly exposed — its clock set to its incubation time — when a given random number is below
   `1 - exp (total)`.

   The kernel's program computes the per-contact logarithms in a pallas_call over 25 blocks of a
   250000 × 128 layout of the contacts, and everything else on the host; the reference computes all of
   it on the host.  The frames of the two kernel programs are the generated ones; the reference's frame
   is its generated run with the result dropped; the ideal pass rewrote nothing, so `preserves` is
   `True`; and `algebraic` sets the kernel program's run (Proof/ProgramValue.lean: the region's output
   array as one function of its inputs, Proof/EdgeArray.lean, between the host lines before and after
   it, Proof/HostValue.lean) beside the reference's run, the two results being one function of the
   arguments over the extended reals (Proof/Bridge.lean, over Proof/LibPointwise.lean). -/
import proofs.«404786_j29755533426928_3_alg».proof.Defs
import proofs.«404786_j29755533426928_3_alg».proof.Proof.Gen.Kernel
import proofs.«404786_j29755533426928_3_alg».proof.Proof.Gen.Kernel.Frame
import proofs.«404786_j29755533426928_3_alg».proof.Proof.Gen.KernelIdeal
import proofs.«404786_j29755533426928_3_alg».proof.Proof.Gen.KernelIdeal.Frame
import proofs.«404786_j29755533426928_3_alg».proof.Proof.Gen.ReferenceIdeal
import proofs.«404786_j29755533426928_3_alg».proof.Proof.Gen.ReferenceIdeal.Run
import proofs.«404786_j29755533426928_3_alg».proof.Proof.Gen.Pre_finite_inputs
import proofs.«404786_j29755533426928_3_alg».proof.Proof.ProgramValue
import proofs.«404786_j29755533426928_3_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the seven arguments both programs end with the result at one function
    of them: the kernel program's at `ProgramValue.result`, the reference's at the composed term of its
    operations, equal by `Bridge.value_eq`. -/
theorem algebraic : Cert.algebraic_KernelIdeal_ReferenceIdeal := by
  intro m ρ m' ρ' _ hagree
  refine ⟨_, Cert.KernelIdeal.ProgramValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2]
  exact (Bridge.value_eq _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
